-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S2x1600000 : Shape := ⟨2, ![2, 1600000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : FVec F S256x128 .f32) (main_arg2 : FVec F S128 .f32) (main_arg3 : FVec F S256x64 .f32) (main_arg4 : FVec F S64 .f32) (main_arg5 : IVec S2x1600000 32) (main_arg6 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S100000x256 : Shape := ⟨2, ![100000, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 105
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S256x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x256, .bf16⟩
  | .hbm, ⟨48, _⟩ => ⟨S256x128, .bf16⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000x128, .f32⟩
  | .hbm, ⟨81, _⟩ => ⟨S100000x128, .f32⟩
  | .hbm, ⟨82, _⟩ => ⟨S100000x256, .f32⟩
  | .hbm, ⟨83, _⟩ => ⟨S100000x256, .bf16⟩
  | .hbm, ⟨84, _⟩ => ⟨S256x64, .bf16⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x1, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x128, .f32⟩
  | .local _ .vmem, ⟨4, _⟩ => ⟨S10000x128, .f32⟩
  | .local _ .vmem, ⟨5, _⟩ => ⟨S10000x256, .bf16⟩
  | .local _ .vmem, ⟨6, _⟩ => ⟨S10000x256, .bf16⟩
  | .local _ .vmem, ⟨7, _⟩ => ⟨S256x64, .bf16⟩
  | .local _ .vmem, ⟨8, _⟩ => ⟨S10000x64, .f32⟩
  | .local _ .vmem, ⟨9, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S100000x1_S100000x128_1_0_n_n_0_1_1128_wf : GatherDims.WF S100000x128 S100000x1 S100000x128 [1] [0] [] [0] [] 1 ![1, 128]
  dot_S10000x256_S256x64_S10000x64_1_0_0_1_n_n_wf : DotDims.WF S10000x256 S256x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .bf16 = 32 ∨ (Rect.block (s := S100000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S100000x256.size a
  hwx1_0 : ∀ i : grid1.Coords, EltTy.bits .bf16 = 32 ∨ (Rect.block (s := S100000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v30) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S256x64 : Shape := ⟨2, ![256, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S256x64, .f32⟩
  | 4 => ⟨S64, .f32⟩
  | 5 => ⟨S2x1600000, .i32⟩
  | 6 => ⟨S100000, .i32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x128, .f32⟩
  | 79 => ⟨S100000x128, .f32⟩
  | 80 => ⟨S100000x256, .f32⟩
  | 81 => ⟨S100000x64, .f32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x256, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_19 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S100000x1_S100000x128_1_0_n_n_0_1_1128_wf : GatherDims.WF S100000x128 S100000x1 S100000x128 [1] [0] [] [0] [] 1 ![1, 128]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The mathematics both programs share, as functions of the values that are live between their stages. A graph of
  100000 nodes is given by an edge list (two rows of 1600000 node indices: sources and destinations); every node also
  gets a self loop. With deg(v) the number of edges INTO v (self loop included) and dinv = deg^(-1/2) (zero where the
  degree is not positive), an edge (s, d) weighs dinv[s] · dinv[d]. A layer maps node features M (already multiplied by
  its weight matrix) to   out[v] = Σ over edges (s, v) of weight · M[s]  +  bias.   Between the two layers the features
  pass a rectifier and are "anchored": row v of the second layer's input is (h[v] − h[perm[v]]) followed by h[perm[v]].
  A negative index counts from the end (100000 is added), as array indexing does.
  Every function here is one host operation of the programs or a short chain of them, kept folded: the two programs
  are compared by showing each computes these same functions of the same values, never by opening them.
-/
import proofs.«105978_j29643864277064_1_alg».proof.Proof.Gen.KernelIdeal

noncomputable section

namespace Cert.Spec

open Cert.KernelIdeal Cert.KernelIdeal.Facts₀ Cert.KernelIdeal.Facts Idealize.ShloMosaic

variable {F : FTy → Type} [FloatOps F]

/-- A tensor of shape `s` and element type `e` over the float family `F`. -/
abbrev Ten (F : FTy → Type) (s : Shape) (e : EltTy) : Type := (⟨s, e⟩ : BufTy).Contents (Elt F)

/-- The edge list's row of sources followed by the self loops 0 … 99999: the source of each of the 1700000 edges. -/
def sources (e : Ten F S2x1600000 .i32) : Ten F S1700000 .i32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edge list's row of destinations followed by the self loops. -/
def dests (e : Ten F S2x1600000 .i32) : Ten F S1700000 .i32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative edge endpoint counts from the end: 100000 is added to it. -/
def wrapE (s : Ten F S1700000 .i32) : Ten F S1700000 .i32 :=
  select (cmpi .slt s (broadcastInDim S1700000 ![] bcast_S_S1700000 (constantI S_ 32 0#32)))
    (addi s (broadcastInDim S1700000 ![] bcast_S_S1700000 (constantI S_ 32 100000#32))) s

/-- The same for a node index of the permutation. -/
def wrapN (p : Ten F S100000 .i32) : Ten F S100000 .i32 :=
  select (cmpi .slt p (broadcastInDim S100000 ![] bcast_S_S100000 (constantI S_ 32 0#32)))
    (addi p (broadcastInDim S100000 ![] bcast_S_S100000 (constantI S_ 32 100000#32))) p

/-- deg(v): one is added at the destination of every edge. -/
def degree (d : Ten F S1700000 .i32) : Ten F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- dinv(v) = deg(v)^(-1/2) where deg(v) > 0, else 0. -/
def dinv (d : Ten F S1700000 .i32) : Ten F S100000 .f32 :=
  select (cmpf .ogt (degree (F := F) d) (broadcastInDim S100000 ![] bcast_S_S100000 (constant S_ .f32 0x00000000#32)))
    (Host.rsqrt (degree (F := F) d))
    (broadcastInDim S100000 ![] bcast_S_S100000 (id (constant (F := F) S_ .f32 0x00000000#32)))

/-- The weight of each edge: dinv at its source times dinv at its destination. -/
def weight (s d : Ten F S1700000 .i32) (dv : Ten F S100000 .f32) : Ten F S1700000 .f32 :=
  mulf (Host.gather gather_S100000_S1700000x1_S1700000_n_0_n_n_0_1_1 dv (broadcastInDim S1700000x1 ![0] bcast_S1700000_S1700000x1_0 (wrapE (F := F) s)))
    (Host.gather gather_S100000_S1700000x1_S1700000_n_0_n_n_0_1_1 dv (broadcastInDim S1700000x1 ![0] bcast_S1700000_S1700000x1_0 (wrapE (F := F) d)))

/-- Layer 1's aggregation over 128 features: out[v] = Σ over edges (s, v) of weight · M[s], plus the bias. -/
def aggregate128 (s d : Ten F S1700000 .i32) (wgt : Ten F S1700000 .f32) (M : Ten F S100000x128 .f32) (b : Ten F S128 .f32) :
    Ten F S100000x128 .f32 :=
  addf (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (Host.gather gather_S100000x128_S1700000x1_S1700000x128_1_0_n_n_0_1_1128 M (broadcastInDim S1700000x1 ![0] bcast_S1700000_S1700000x1_0 (wrapE (F := F) s)))
        (broadcastInDim S1700000x128 ![0, 1] bcast_S1700000x1_S1700000x128_0_1 (broadcastInDim S1700000x1 ![0] bcast_S1700000_S1700000x1_0 wgt))))
    (broadcastInDim S100000x128 ![0, 1] bcast_S1x128_S100000x128_0_1 (broadcastInDim S1x128 ![1] bcast_S128_S1x128_1 b))

/-- Layer 2's aggregation over 64 features. -/
def aggregate64 (s d : Ten F S1700000 .i32) (wgt : Ten F S1700000 .f32) (M : Ten F S100000x64 .f32) (b : Ten F S64 .f32) :
    Ten F S100000x64 .f32 :=
  addf (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 M (broadcastInDim S1700000x1 ![0] bcast_S1700000_S1700000x1_0 (wrapE (F := F) s)))
        (broadcastInDim S1700000x64 ![0, 1] bcast_S1700000x1_S1700000x64_0_1 (broadcastInDim S1700000x1 ![0] bcast_S1700000_S1700000x1_0 wgt))))
    (broadcastInDim S100000x64 ![0, 1] bcast_S1x64_S100000x64_0_1 (broadcastInDim S1x64 ![1] bcast_S64_S1x64_1 b))

/-- The rectifier: the maximum with zero. -/
def rectify (x : Ten F S100000x128 .f32) : Ten F S100000x128 .f32 :=
  maximumf x (broadcastInDim S100000x128 ![] bcast_S_S100000x128 (constant (F := F) S_ .f32 0x00000000#32))

/-- Row v of the hidden features at the permuted node perm[v]. -/
def permuted (h : Ten F S100000x128 .f32) (p : Ten F S100000 .i32) : Ten F S100000x128 .f32 :=
  Host.gather gather_S100000x128_S100000x1_S100000x128_1_0_n_n_0_1_1128 h (broadcastInDim S100000x1 ![0] bcast_S100000_S100000x1_0 (wrapN (F := F) p))

/-- The anchored features: (h − h∘perm) beside h∘perm, 256 columns. -/
def anchored (h : Ten F S100000x128 .f32) (p : Ten F S100000 .i32) : Ten F S100000x256 .f32 :=
  concatenate S100000x256 1 [⟨S100000x128, subf h (permuted h p)⟩, ⟨S100000x128, permuted h p⟩] concatenates_S100000x128_S100000x128_S100000x256_d1

end Cert.Spec

end
-- ==== Proof.FoldTactic.lean ====
/-
  Reading a fold of host operations at one buffer, in one simplifier pass.
-/
import Idealize.ShloMosaic.Lib.StableHlo.Run

namespace Cert.Spec

open Idealize.ShloMosaic Idealize.ShloMosaic.StableHlo

/-- The concatenation of two pieces along an axis, the pieces as plain arguments: the same function as the
    concatenation of the two-element list, in which the side condition's type mentions the list and so keeps a
    rewrite from reaching the pieces. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = concat2 t a s₁ s₂ h x y := rfl

/-- Reads a fold of host operations at a buffer by one simplifier pass: each operation's result at its own buffer is
    its function's value, at any other buffer what was there; a two-piece concatenation is opened so that its pieces
    are read too. What is left is an equation between terms over the contents the fold starts from. -/
macro "read_fold" : tactic =>
  `(tactic| simp (disch := decide) only [Idealize.ShloMosaic.StableHlo.after_cons, Idealize.ShloMosaic.StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.Spec.concatenate_pair])

end Cert.Spec
-- ==== Proof.KChainA.lean ====
/-
  The kernel program's host operations BEFORE its first matrix product, read back as functions of the arguments: the
  edges' sources and destinations, the edge weights, and the two narrowed operands of the product.
-/
import proofs.«105978_j29643864277064_1_alg».proof.Proof.Gen.KernelIdeal.Frame
import proofs.«105978_j29643864277064_1_alg».proof.Proof.Spec
import proofs.«105978_j29643864277064_1_alg».proof.Proof.FoldTactic
import Idealize.ShloMosaic.Lib.StableHlo.Run

set_option maxRecDepth 16384

noncomputable section

namespace Cert.KernelIdeal.Chain

open Cert.KernelIdeal Cert.KernelIdeal.Gen Cert.KernelIdeal.Facts₀ Cert.KernelIdeal.Facts Cert.Spec
open Idealize.ShloMosaic Idealize.ShloMosaic.TcCoe Idealize.SL.Sem Idealize.ShloMosaic.StableHlo

variable {F : FTy → Type} [FloatOps F]

section Before

variable (V : Valuation τ sig (Elt F))

/-- The buffer contents after the operations before the first product, from contents `V`. -/
abbrev afterA : Valuation τ sig (Elt F) :=
  StableHlo.after hostOps0_2 (StableHlo.after hostOps0_1 (StableHlo.after hostOps0 V))

/-- The edges' sources. -/
theorem afterA_src : afterA V (Proc.devRef .tc main_v3) = sources (F := F) (V (Proc.devRef .tc main_arg5)) := by
  dsimp only [afterA, hostOps0, hostOps0_1, hostOps0_2]
  read_fold
  try rfl

/-- The edges' destinations. -/
theorem afterA_dst : afterA V (Proc.devRef .tc main_v6) = dests (F := F) (V (Proc.devRef .tc main_arg5)) := by
  dsimp only [afterA, hostOps0, hostOps0_1, hostOps0_2]
  read_fold
  try rfl

/-- The edge weights, from the edge list alone. -/
theorem afterA_weight : afterA V (Proc.devRef .tc main_v29)
    = weight (F := F) (sources (V (Proc.devRef .tc main_arg5))) (dests (V (Proc.devRef .tc main_arg5))) (dinv (dests (V (Proc.devRef .tc main_arg5)))) := by
  dsimp only [afterA, hostOps0, hostOps0_1, hostOps0_2]
  read_fold
  try rfl

/-- The left operand of the first product: the feature matrix, narrowed. -/
theorem afterA_lhs : afterA V (Proc.devRef .tc main_v30) = truncf .bf16 (V (Proc.devRef .tc main_arg0)) Facts₀.bitsLt_bf16_f32 := by
  dsimp only [afterA, hostOps0, hostOps0_1, hostOps0_2]
  read_fold
  try rfl

/-- The right operand of the first product: the first weight matrix, narrowed. -/
theorem afterA_rhs : afterA V (Proc.devRef .tc main_v31) = truncf .bf16 (V (Proc.devRef .tc main_arg1)) Facts₀.bitsLt_bf16_f32 := by
  dsimp only [afterA, hostOps0, hostOps0_1, hostOps0_2]
  read_fold
  try rfl

/-- The operations before the first product write none of the arguments that later operations read. -/
theorem afterA_keep_bias1 : afterA V (Proc.devRef .tc main_arg2) = V (Proc.devRef .tc main_arg2) := by
  dsimp only [afterA, hostOps0, hostOps0_1, hostOps0_2]; read_fold
theorem afterA_keep_w2 : afterA V (Proc.devRef .tc main_arg3) = V (Proc.devRef .tc main_arg3) := by
  dsimp only [afterA, hostOps0, hostOps0_1, hostOps0_2]; read_fold
theorem afterA_keep_bias2 : afterA V (Proc.devRef .tc main_arg4) = V (Proc.devRef .tc main_arg4) := by
  dsimp only [afterA, hostOps0, hostOps0_1, hostOps0_2]; read_fold
theorem afterA_keep_perm : afterA V (Proc.devRef .tc main_arg6) = V (Proc.devRef .tc main_arg6) := by
  dsimp only [afterA, hostOps0, hostOps0_1, hostOps0_2]; read_fold

end Before

end Cert.KernelIdeal.Chain

end
-- ==== Proof.KChainB.lean ====
/-
  The kernel program's host operations BETWEEN its two matrix products, read back: from the first product M1 they
  form the first layer's output (aggregation over the edges, bias, rectifier), anchor it by the permutation, and
  narrow it and the second weight matrix for the second product. The edges' endpoints and weights, made before the
  first product, are only read here.
-/
import proofs.«105978_j29643864277064_1_alg».proof.Proof.Gen.KernelIdeal.Frame
import proofs.«105978_j29643864277064_1_alg».proof.Proof.Spec
import proofs.«105978_j29643864277064_1_alg».proof.Proof.FoldTactic
import Idealize.ShloMosaic.Lib.StableHlo.Run

set_option maxRecDepth 16384

noncomputable section

namespace Cert.KernelIdeal.Chain

open Cert.KernelIdeal Cert.KernelIdeal.Gen Cert.KernelIdeal.Facts₀ Cert.KernelIdeal.Facts Cert.Spec
open Idealize.ShloMosaic Idealize.ShloMosaic.TcCoe Idealize.SL.Sem Idealize.ShloMosaic.StableHlo

variable {F : FTy → Type} [FloatOps F]

section Between

variable (V : Valuation τ sig (Elt F))

/-- The buffer contents after the operations between the two products, from contents `V`. -/
abbrev afterB : Valuation τ sig (Elt F) :=
  StableHlo.after hostOps1_2 (StableHlo.after hostOps1_1 (StableHlo.after hostOps1 V))

/-- The first layer's aggregation and bias, from the first product (the buffer `main_v32`). -/
theorem between_aggregate : StableHlo.after hostOps1 V (Proc.devRef .tc main_v48)
    = aggregate128 (F := F) (V (Proc.devRef .tc main_v3)) (V (Proc.devRef .tc main_v6)) (V (Proc.devRef .tc main_v29))
        (V (Proc.devRef .tc main_v32)) (V (Proc.devRef .tc main_arg2)) := by
  dsimp only [hostOps1]; read_fold; try rfl
theorem between_aggregate_keep_perm : StableHlo.after hostOps1 V (Proc.devRef .tc main_arg6) = V (Proc.devRef .tc main_arg6) := by
  dsimp only [hostOps1]; read_fold

/-- The rectifier. -/
theorem between_rectify : StableHlo.after hostOps1_1 V (Proc.devRef .tc main_v49) = rectify (F := F) (V (Proc.devRef .tc main_v48)) := by
  dsimp only [hostOps1_1]; read_fold; try rfl
theorem between_rectify_keep_perm : StableHlo.after hostOps1_1 V (Proc.devRef .tc main_arg6) = V (Proc.devRef .tc main_arg6) := by
  dsimp only [hostOps1_1]; read_fold

/-- The anchoring by the permutation, narrowed. -/
theorem between_anchor : StableHlo.after hostOps1_2 V (Proc.devRef .tc main_v59)
    = truncf .bf16 (anchored (F := F) (V (Proc.devRef .tc main_v49)) (V (Proc.devRef .tc main_arg6))) Facts₀.bitsLt_bf16_f32 := by
  dsimp only [hostOps1_2]; read_fold; try rfl

/-- The left operand of the second product: the anchored rectified first-layer output, narrowed. -/
theorem afterB_lhs : afterB V (Proc.devRef .tc main_v59)
    = truncf .bf16 (anchored (F := F) (rectify (aggregate128 (V (Proc.devRef .tc main_v3)) (V (Proc.devRef .tc main_v6)) (V (Proc.devRef .tc main_v29))
        (V (Proc.devRef .tc main_v32)) (V (Proc.devRef .tc main_arg2)))) (V (Proc.devRef .tc main_arg6))) Facts₀.bitsLt_bf16_f32 := by
  show StableHlo.after hostOps1_2 (StableHlo.after hostOps1_1 (StableHlo.after hostOps1 V)) (Proc.devRef .tc main_v59) = _
  rw [between_anchor, between_rectify, between_aggregate, between_rectify_keep_perm, between_aggregate_keep_perm]

/-- The right operand of the second product: the second weight matrix, narrowed. -/
theorem afterB_rhs : afterB V (Proc.devRef .tc main_v60) = truncf .bf16 (V (Proc.devRef .tc main_arg3)) Facts₀.bitsLt_bf16_f32 := by
  dsimp only [afterB, hostOps1, hostOps1_1, hostOps1_2]
  read_fold
  try rfl

/-- These operations write neither the edges' endpoints and weights nor the second bias. -/
theorem afterB_keep_src : afterB V (Proc.devRef .tc main_v3) = V (Proc.devRef .tc main_v3) := by
  dsimp only [afterB, hostOps1, hostOps1_1, hostOps1_2]; read_fold
theorem afterB_keep_dst : afterB V (Proc.devRef .tc main_v6) = V (Proc.devRef .tc main_v6) := by
  dsimp only [afterB, hostOps1, hostOps1_1, hostOps1_2]; read_fold
theorem afterB_keep_weight : afterB V (Proc.devRef .tc main_v29) = V (Proc.devRef .tc main_v29) := by
  dsimp only [afterB, hostOps1, hostOps1_1, hostOps1_2]; read_fold
theorem afterB_keep_bias2 : afterB V (Proc.devRef .tc main_arg4) = V (Proc.devRef .tc main_arg4) := by
  dsimp only [afterB, hostOps1, hostOps1_1, hostOps1_2]; read_fold

end Between

section After

variable (V : Valuation τ sig (Elt F))

/-- The program's result: the second layer's aggregation of the second product M2 over the edges, plus its bias. -/
theorem afterC_result : StableHlo.after hostOps2 V (Proc.devRef .tc main_v77)
    = aggregate64 (F := F) (V (Proc.devRef .tc main_v3)) (V (Proc.devRef .tc main_v6)) (V (Proc.devRef .tc main_v29))
        (V (Proc.devRef .tc main_v61)) (V (Proc.devRef .tc main_arg4)) := by
  dsimp only [hostOps2]
  read_fold
  try rfl

end After

end Cert.KernelIdeal.Chain

end
-- ==== Proof.RegionValue0.lean ====
/-
  What region 0 of the program leaves in its output array. The region is a row-tiled matrix product: grid point t takes
  rows 10000·t … 10000·t + 9999 of the left array (a [10000, 256] block), the whole right array ([256, 128]), and writes
  the [10000, 128] block of products into the same rows of the output. Read over the extended reals, a product into a zero
  accumulator is the plain sum over the contracted index, and narrowing a float's format is the identity, so the
  blocks together are the whole [100000, 256] × [256, 128] product — the function the reference's dot_general computes.
-/
import proofs.«105978_j29643864277064_1_alg».proof.Proof.Gen.KernelIdeal.Frame
import proofs.«105978_j29643864277064_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One block's product, read at an index -/

/-- The four axis facts of the block product's dimension numbers ([10000, 256] × [256, 128], contracting axis 1 of
    the left with axis 0 of the right): the left operand is read at (row of the output, contraction position), the
    right operand at (contraction position, column of the output). -/
theorem blk_lhs_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem blk_lhs_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem blk_rhs_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem blk_rhs_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The block's product at row `r`, column `j`: the sum over the contracted index of the left block's row against the
    right block's column. -/
theorem pay_apply (v0 : FVec Ideal S10000x256 .bf16) (v2 : FVec Ideal S256x128 .bf16) (r : Fin 10000) (j : Fin 128) :
    k0_pay1 (F := Ideal) v0 v2 (ix2 r j) = ∑ k : Fin 256, v0 (ix2 r k) * v2 (ix2 k j) := by
  unfold k0_pay1
  show matmul dot_S10000x256_S256x128_S10000x128_1_0_0_1_n_n none (shapeCast S10000x256 v0 shapeCasts_S10000x256_S10000x256) (shapeCast S256x128 v2 shapeCasts_S256x128_S256x128) (constant S10000x128 .f32 0x00000000#32) (ix2 r j) = _
  rw [shapeCast_self, shapeCast_self]
  simp only [matmul]
  rw [Ideal.matmul_constant_zero_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx (ix2 r j) ((ValueIdx.contrEquiv1 dot_S10000x256_S256x128_S10000x128_1_0_0_1_n_n 256 rfl rfl).symm k) = ix2 r k := funext fun a => Fin.ext (by
    match a with
    | ⟨0, _⟩ => exact blk_lhs_0 _ _
    | ⟨1, _⟩ => exact (blk_lhs_1 _ _).trans hk)
  have er : dot_S10000x256_S256x128_S10000x128_1_0_0_1_n_n.rhsIdx (ix2 r j) ((ValueIdx.contrEquiv1 dot_S10000x256_S256x128_S10000x128_1_0_0_1_n_n 256 rfl rfl).symm k) = ix2 k j := funext fun a => Fin.ext (by
    match a with
    | ⟨0, _⟩ => exact (blk_rhs_0 _ _).trans hk
    | ⟨1, _⟩ => exact blk_rhs_1 _ _)
  rw [el, er]

/-! ## The whole-array product and what a point writes back -/

/-- The whole-block rectangles start at the origin. -/
theorem hz : (![0, 0] : Fin 2 → Nat) = fun _ => 0 := funext fun a => by fin_cases a <;> rfl

/-- Row `r`, column `q` of the product of a [100000, 256] array with a [256, 128] array. -/
def prodAt (a : FVec Ideal S100000x256 .bf16) (b : FVec Ideal S256x128 .bf16) (r : Fin 100000) (q : Fin 128) : EReal :=
  ∑ k : Fin 256, a (ix2 r k) * b (ix2 k q)

/-- The product as an array. -/
def prod (a : FVec Ideal S100000x256 .bf16) (b : FVec Ideal S256x128 .bf16) : Vec Ideal S100000x128 .f32 :=
  fun i => prodAt a b ⟨(i 0).val, (i 0).isLt⟩ ⟨(i 1).val, (i 1).isLt⟩

/-- The index maps, decided over the grid: at point `t` the left and the output blocks are block `t` along the rows and
    block 0 along the columns; the right block is block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Point `t`'s block of the left array (rows 10000·t …) against its block of the right array (the whole of it), summed
    over the contracted index, is the product at the place point `t`'s block of the output puts row `r`, column `q`. -/
theorem blk_sum_eq (a : FVec Ideal S100000x256 .bf16) (b : FVec Ideal S256x128 .bf16) (t : Fin cfg0.N) (r : Fin 10000) (q : Fin 128) :
    (∑ k : Fin 256, a (((cfg0.win 0).blk t).view.emb (ix2 r k)) * b (((cfg0.win 1).blk t).view.emb (ix2 k q)))
      = prod a b (((cfg0.win 2).blk t).view.emb (ix2 r q)) := by
  obtain ⟨e0, e1, e2, e3, e4, e5⟩ := idx_facts t
  unfold prod prodAt
  refine Finset.sum_congr rfl fun k _ => ?_
  have h0 : ((cfg0.win 0).blk t).view.emb (ix2 r k)
      = ix2 (⟨((((cfg0.win 2).blk t).view.emb (ix2 r q)) 0).val, ((((cfg0.win 2).blk t).view.emb (ix2 r q)) 0).isLt⟩ : Fin 100000) k := by
    funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 256 + 1 * k.val = k.val; omega
  have h1 : ((cfg0.win 1).blk t).view.emb (ix2 k q)
      = ix2 k (⟨((((cfg0.win 2).blk t).view.emb (ix2 r q)) 1).val, ((((cfg0.win 2).blk t).view.emb (ix2 r q)) 1).isLt⟩ : Fin 128) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]

section
variable (V : (c : Dev nD) → (b : Ref sig .tc) → Buf (Elt Ideal) ((c : Thread nD τ).loc b))

/-- What point `t` writes back is block `t` of the product of the two arrays the region was entered with. -/
theorem flushed_eq (c : Dev nD) (t : Fin cfg0.N) :
    (dat0 V c).flushed 2 t = ((cfg0.win 2).blk t).view.read (Elt Ideal) (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  funext j
  obtain ⟨r, q, rfl⟩ : ∃ (r : Fin 10000) (q : Fin 128), j = ix2 r q := ⟨j 0, j 1, eq_ix2 j⟩
  show k0_pay1 (F := Ideal) (iblk0 V c 0 t) (iblk0 V c 1 t) (ix2 r q)
    = prod (V c (Pipeline.arrRef spec0 0)) (V c (Pipeline.arrRef spec0 1)) (((cfg0.win 2).blk t).view.emb (ix2 r q))
  rw [pay_apply]
  exact blk_sum_eq (V c (Pipeline.arrRef spec0 0)) (V c (Pipeline.arrRef spec0 1)) t r q

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every row of the output is in some point's block: row `r` is in the block of point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by show _ < grid0.N; rw [N_0]; omega
  obtain ⟨e0, e1, e2, e3, e4, e5⟩ := idx_facts ⟨(i 0).val / 10000, hN⟩
  have e4' : win0_2.index ⟨(i 0).val / 10000, hN⟩ (0 : Fin 2) = (i 0).val / 10000 := e4
  refine ⟨⟨(i 0).val / 10000, hN⟩, flush0_2 _, ?_⟩
  rw [mem_blk]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 128 ≤ (i 1).val ∧ (i 1).val < win0_2.index ⟨(i 0).val / 10000, hN⟩ (1 : Fin 2) * 128 + 128; omega

/-- The output array after the last point: the product of the two arrays the region was entered with. -/
theorem final (c : Dev nD) :
    (dat0 V c).arrAt 2 cfg0.N = prod (V c (Pipeline.arrRef spec0 0)) (V c (Pipeline.arrRef spec0 1)) :=
  (dat0 V c).arrAt_eq_of_cover 2 _ (fun t _ => flushed_eq V c t) cover
end

/-! ## The reference's product, read at an index -/

/-- The same four axis facts for the reference's dimension numbers ([100000, 256] × [256, 128]). -/
theorem ref_lhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem ref_lhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem ref_rhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem ref_rhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The reference's whole-array product at row `r`, column `q`: the same sum over the contracted index. -/
theorem ref_apply (x : FVec Ideal S100000x256 .f32) (w : FVec Ideal S256x128 .f32) (r : Fin 100000) (q : Fin 128) :
    Host.dotGeneral (F := Ideal) Cert.ReferenceIdeal.dot_S100000x256_S256x128_S100000x128_1_0_0_1_n_n none x w (ix2 r q)
      = ∑ k : Fin 256, x (ix2 r k) * w (ix2 k q) := by
  simp only [Host.dotGeneral]
  rw [Ideal.dotGeneral_apply, ← Equiv.sum_comp (ValueIdx.contrEquiv1 Cert.ReferenceIdeal.dot_S100000x256_S256x128_S100000x128_1_0_0_1_n_n 256 rfl rfl).symm]
  refine Finset.sum_congr rfl fun k _ => ?_
  have hk := ValueIdx.contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 r q) ((ValueIdx.contrEquiv1 Cert.ReferenceIdeal.dot_S100000x256_S256x128_S100000x128_1_0_0_1_n_n 256 rfl rfl).symm k) = ix2 r k := funext fun a => Fin.ext (by
    match a with
    | ⟨0, _⟩ => exact ref_lhs_0 _ _
    | ⟨1, _⟩ => exact (ref_lhs_1 _ _).trans hk)
  have er : Cert.ReferenceIdeal.dot_S100000x256_S256x128_S100000x128_1_0_0_1_n_n.rhsIdx (ix2 r q) ((ValueIdx.contrEquiv1 Cert.ReferenceIdeal.dot_S100000x256_S256x128_S100000x128_1_0_0_1_n_n 256 rfl rfl).symm k) = ix2 k q := funext fun a => Fin.ext (by
    match a with
    | ⟨0, _⟩ => exact (ref_rhs_0 _ _).trans hk
    | ⟨1, _⟩ => exact ref_rhs_1 _ _)
  rw [el, er]

/-- The output array of region 0 after its last grid point is the whole-array product of the two arrays it was
    entered with, when those are the narrowed copies of `x` and `w`. -/
theorem region0_value (V : (c : Dev nD) → (b : Ref sig .tc) → Buf (Elt Ideal) ((c : Thread nD τ).loc b)) (c : Dev nD)
    (x : FVec Ideal S100000x256 .f32) (w : FVec Ideal S256x128 .f32)
    (hx : V c (Pipeline.arrRef spec0 0) = truncf .bf16 x bitsLt_bf16_f32)
    (hw : V c (Pipeline.arrRef spec0 1) = truncf .bf16 w bitsLt_bf16_f32) :
    (dat0 V c).arrAt 2 cfg0.N
      = Host.dotGeneral (F := Ideal) Cert.ReferenceIdeal.dot_S100000x256_S256x128_S100000x128_1_0_0_1_n_n none x w := by
  rw [final V c, hx, hw]
  funext i
  obtain ⟨r, q, rfl⟩ : ∃ (r : Fin 100000) (q : Fin 128), i = ix2 r q := ⟨i 0, i 1, eq_ix2 i⟩
  rw [ref_apply]
  rfl

end Cert.KernelIdeal.RegionValue0

end
-- ==== Proof.RegionValue1.lean ====
/-
  What region 1 of the program leaves in its output array. The region is a row-tiled matrix product: grid point t takes
  rows 10000·t … 10000·t + 9999 of the left array (a [10000, 256] block), the whole right array ([256, 64]), and writes
  the [10000, 64] block of products into the same rows of the output. Read over the extended reals, a product into a zero
  accumulator is the plain sum over the contracted index, and narrowing a float's format is the identity, so the
  blocks together are the whole [100000, 256] × [256, 64] product — the function the reference's dot_general computes.
-/
import proofs.«105978_j29643864277064_1_alg».proof.Proof.Gen.KernelIdeal.Frame
import proofs.«105978_j29643864277064_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RegionValue1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One block's product, read at an index -/

/-- The four axis facts of the block product's dimension numbers ([10000, 256] × [256, 64], contracting axis 1 of
    the left with axis 0 of the right): the left operand is read at (row of the output, contraction position), the
    right operand at (contraction position, column of the output). -/
theorem blk_lhs_0 (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
theorem blk_lhs_1 (i : S10000x64.Idx) (q : dot_S10000x256_S256x64_S10000x64_1_0_0_1_n_n.contr.Idx) :
    (dot_S10000x256_S256x64_S10000x64_1_0_0_1_n_n.lhsIdx i q 1).val = (q ⟨0, by decide⟩).val :=
  dot_S10000x256_S256x64_S10000x64_1_0_0_1_n_n.lhsIdx_val_of_single rfl i q
theorem blk_rhs_0 (i : S10000x64.Idx) (q : dot_S10000x256_S256x64_S10000x64_1_0_0_1_n_n.contr.Idx) :
    (dot_S10000x256_S256x64_S10000x64_1_0_0_1_n_n.rhsIdx i q 0).val = (q ⟨0, by decide⟩).val :=
  dot_S10000x256_S256x64_S10000x64_1_0_0_1_n_n.rhsIdx_val_of_single rfl i q
theorem blk_rhs_1 (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- The block's product at row `r`, column `j`: the sum over the contracted index of the left block's row against the
    right block's column. -/
theorem pay_apply (v0 : FVec Ideal S10000x256 .bf16) (v2 : FVec Ideal S256x64 .bf16) (r : Fin 10000) (j : Fin 64) :
    k1_pay1 (F := Ideal) v0 v2 (ix2 r j) = ∑ k : Fin 256, v0 (ix2 r k) * v2 (ix2 k j) := by
  unfold k1_pay1
  show matmul dot_S10000x256_S256x64_S10000x64_1_0_0_1_n_n none (shapeCast S10000x256 v0 shapeCasts_S10000x256_S10000x256) (shapeCast S256x64 v2 shapeCasts_S256x64_S256x64) (constant S10000x64 .f32 0x00000000#32) (ix2 r j) = _
  rw [shapeCast_self, shapeCast_self]
  simp only [matmul]
  rw [Ideal.matmul_constant_zero_apply, ← Equiv.sum_comp (ValueIdx.contrEquiv1 dot_S10000x256_S256x64_S10000x64_1_0_0_1_n_n 256 rfl rfl).symm]
  refine Finset.sum_congr rfl fun k _ => ?_
  have hk := ValueIdx.contrEquiv1_symm_val dot_S10000x256_S256x64_S10000x64_1_0_0_1_n_n 256 rfl rfl k
  have el : dot_S10000x256_S256x64_S10000x64_1_0_0_1_n_n.lhsIdx (ix2 r j) ((ValueIdx.contrEquiv1 dot_S10000x256_S256x64_S10000x64_1_0_0_1_n_n 256 rfl rfl).symm k) = ix2 r k := funext fun a => Fin.ext (by
    match a with
    | ⟨0, _⟩ => exact blk_lhs_0 _ _
    | ⟨1, _⟩ => exact (blk_lhs_1 _ _).trans hk)
  have er : dot_S10000x256_S256x64_S10000x64_1_0_0_1_n_n.rhsIdx (ix2 r j) ((ValueIdx.contrEquiv1 dot_S10000x256_S256x64_S10000x64_1_0_0_1_n_n 256 rfl rfl).symm k) = ix2 k j := funext fun a => Fin.ext (by
    match a with
    | ⟨0, _⟩ => exact (blk_rhs_0 _ _).trans hk
    | ⟨1, _⟩ => exact blk_rhs_1 _ _)
  rw [el, er]

/-! ## The whole-array product and what a point writes back -/

/-- The whole-block rectangles start at the origin. -/
theorem hz : (![0, 0] : Fin 2 → Nat) = fun _ => 0 := funext fun a => by fin_cases a <;> rfl

/-- Row `r`, column `q` of the product of a [100000, 256] array with a [256, 64] array. -/
def prodAt (a : FVec Ideal S100000x256 .bf16) (b : FVec Ideal S256x64 .bf16) (r : Fin 100000) (q : Fin 64) : EReal :=
  ∑ k : Fin 256, a (ix2 r k) * b (ix2 k q)

/-- The product as an array. -/
def prod (a : FVec Ideal S100000x256 .bf16) (b : FVec Ideal S256x64 .bf16) : Vec Ideal S100000x64 .f32 :=
  fun i => prodAt a b ⟨(i 0).val, (i 0).isLt⟩ ⟨(i 1).val, (i 1).isLt⟩

/-- The index maps, decided over the grid: at point `t` the left and the output blocks are block `t` along the rows and
    block 0 along the columns; the right block is block (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Point `t`'s block of the left array (rows 10000·t …) against its block of the right array (the whole of it), summed
    over the contracted index, is the product at the place point `t`'s block of the output puts row `r`, column `q`. -/
theorem blk_sum_eq (a : FVec Ideal S100000x256 .bf16) (b : FVec Ideal S256x64 .bf16) (t : Fin cfg1.N) (r : Fin 10000) (q : Fin 64) :
    (∑ k : Fin 256, a (((cfg1.win 0).blk t).view.emb (ix2 r k)) * b (((cfg1.win 1).blk t).view.emb (ix2 k q)))
      = prod a b (((cfg1.win 2).blk t).view.emb (ix2 r q)) := by
  obtain ⟨e0, e1, e2, e3, e4, e5⟩ := idx_facts t
  unfold prod prodAt
  refine Finset.sum_congr rfl fun k _ => ?_
  have h0 : ((cfg1.win 0).blk t).view.emb (ix2 r k)
      = ix2 (⟨((((cfg1.win 2).blk t).view.emb (ix2 r q)) 0).val, ((((cfg1.win 2).blk t).view.emb (ix2 r q)) 0).isLt⟩ : Fin 100000) k := by
    funext a; apply Fin.ext
    match a with
    | ⟨0, _⟩ => show win1_0.index t (0 : Fin 2) * 10000 + 1 * r.val = win1_2.index t (0 : Fin 2) * 10000 + 1 * r.val; omega
    | ⟨1, _⟩ => show win1_0.index t (1 : Fin 2) * 256 + 1 * k.val = k.val; omega
  have h1 : ((cfg1.win 1).blk t).view.emb (ix2 k q)
      = ix2 k (⟨((((cfg1.win 2).blk t).view.emb (ix2 r q)) 1).val, ((((cfg1.win 2).blk t).view.emb (ix2 r q)) 1).isLt⟩ : Fin 64) := by
    funext a; apply Fin.ext
    match a with
    | ⟨0, _⟩ => show win1_1.index t (0 : Fin 2) * 256 + 1 * k.val = k.val; omega
    | ⟨1, _⟩ => show win1_1.index t (1 : Fin 2) * 64 + 1 * q.val = win1_2.index t (1 : Fin 2) * 64 + 1 * q.val; omega
  rw [h0, h1]

section
variable (V : (c : Dev nD) → (b : Ref sig .tc) → Buf (Elt Ideal) ((c : Thread nD τ).loc b))

/-- What point `t` writes back is block `t` of the product of the two arrays the region was entered with. -/
theorem flushed_eq (c : Dev nD) (t : Fin cfg1.N) :
    (dat1 V c).flushed 2 t = ((cfg1.win 2).blk t).view.read (Elt Ideal) (prod (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x256) hz, View.ld_unit_zero (S := S256x64) hz]
  funext j
  obtain ⟨r, q, rfl⟩ : ∃ (r : Fin 10000) (q : Fin 64), j = ix2 r q := ⟨j 0, j 1, eq_ix2 j⟩
  show k1_pay1 (F := Ideal) (iblk1 V c 0 t) (iblk1 V c 1 t) (ix2 r q)
    = prod (V c (Pipeline.arrRef spec1 0)) (V c (Pipeline.arrRef spec1 1)) (((cfg1.win 2).blk t).view.emb (ix2 r q))
  rw [pay_apply]
  exact blk_sum_eq (V c (Pipeline.arrRef spec1 0)) (V c (Pipeline.arrRef spec1 1)) t r q

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v61).slice (win1_2.rect t)).set ↔ _
  rw [View.set_slice_whole, Rect.mem_set_unit]
  exact Iff.rfl

/-- Every row of the output is in some point's block: row `r` is in the block of point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by show _ < grid1.N; rw [N_1]; omega
  obtain ⟨e0, e1, e2, e3, e4, e5⟩ := idx_facts ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [mem_blk]
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

/-- The output array after the last point: the product of the two arrays the region was entered with. -/
theorem final (c : Dev nD) :
    (dat1 V c).arrAt 2 cfg1.N = prod (V c (Pipeline.arrRef spec1 0)) (V c (Pipeline.arrRef spec1 1)) :=
  (dat1 V c).arrAt_eq_of_cover 2 _ (fun t _ => flushed_eq V c t) cover
end

/-! ## The reference's product, read at an index -/

/-- The same four axis facts for the reference's dimension numbers ([100000, 256] × [256, 64]). -/
theorem ref_lhs_0 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x64_S100000x64_1_0_0_1_n_n.lhsBatch by decide), dif_pos (show (0 : Fin Cert.ReferenceIdeal.S100000x256.rank) ∈ Cert.ReferenceIdeal.dot_S100000x256_S256x64_S100000x64_1_0_0_1_n_n.lhsNonContracting by decide)]
  rfl
theorem ref_lhs_1 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 1).val = (q ⟨0, by decide⟩).val :=
  Cert.ReferenceIdeal.dot_S100000x256_S256x64_S100000x64_1_0_0_1_n_n.lhsIdx_val_of_single rfl i q
theorem ref_rhs_0 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 0).val = (q ⟨0, by decide⟩).val :=
  Cert.ReferenceIdeal.dot_S100000x256_S256x64_S100000x64_1_0_0_1_n_n.rhsIdx_val_of_single rfl i q
theorem ref_rhs_1 (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 1).val = (i 1).val := by
  unfold DotDims.rhsIdx
  rw [dif_neg (show ¬(1 : Fin Cert.ReferenceIdeal.S256x64.rank) ∈ Cert.ReferenceIdeal.dot_S100000x256_S256x64_S100000x64_1_0_0_1_n_n.rhsBatch by decide), dif_pos (show (1 : Fin Cert.ReferenceIdeal.S256x64.rank) ∈ Cert.ReferenceIdeal.dot_S100000x256_S256x64_S100000x64_1_0_0_1_n_n.rhsNonContracting by decide)]
  rfl

/-- The reference's whole-array product at row `r`, column `q`: the same sum over the contracted index. -/
theorem ref_apply (x : FVec Ideal S100000x256 .f32) (w : FVec Ideal S256x64 .f32) (r : Fin 100000) (q : Fin 64) :
    Host.dotGeneral (F := Ideal) Cert.ReferenceIdeal.dot_S100000x256_S256x64_S100000x64_1_0_0_1_n_n none x w (ix2 r q)
      = ∑ k : Fin 256, x (ix2 r k) * w (ix2 k q) := by
  simp only [Host.dotGeneral]
  rw [Ideal.dotGeneral_apply, ← Equiv.sum_comp (ValueIdx.contrEquiv1 Cert.ReferenceIdeal.dot_S100000x256_S256x64_S100000x64_1_0_0_1_n_n 256 rfl rfl).symm]
  refine Finset.sum_congr rfl fun k _ => ?_
  have hk := ValueIdx.contrEquiv1_symm_val Cert.ReferenceIdeal.dot_S100000x256_S256x64_S100000x64_1_0_0_1_n_n 256 rfl rfl k
  have el : Cert.ReferenceIdeal.dot_S100000x256_S256x64_S100000x64_1_0_0_1_n_n.lhsIdx (ix2 r q) ((ValueIdx.contrEquiv1 Cert.ReferenceIdeal.dot_S100000x256_S256x64_S100000x64_1_0_0_1_n_n 256 rfl rfl).symm k) = ix2 r k := funext fun a => Fin.ext (by
    match a with
    | ⟨0, _⟩ => exact ref_lhs_0 _ _
    | ⟨1, _⟩ => exact (ref_lhs_1 _ _).trans hk)
  have er : Cert.ReferenceIdeal.dot_S100000x256_S256x64_S100000x64_1_0_0_1_n_n.rhsIdx (ix2 r q) ((ValueIdx.contrEquiv1 Cert.ReferenceIdeal.dot_S100000x256_S256x64_S100000x64_1_0_0_1_n_n 256 rfl rfl).symm k) = ix2 k q := funext fun a => Fin.ext (by
    match a with
    | ⟨0, _⟩ => exact (ref_rhs_0 _ _).trans hk
    | ⟨1, _⟩ => exact ref_rhs_1 _ _)
  rw [el, er]

/-- The output array of region 1 after its last grid point is the whole-array product of the two arrays it was
    entered with, when those are the narrowed copies of `x` and `w`. -/
theorem region1_value (V : (c : Dev nD) → (b : Ref sig .tc) → Buf (Elt Ideal) ((c : Thread nD τ).loc b)) (c : Dev nD)
    (x : FVec Ideal S100000x256 .f32) (w : FVec Ideal S256x64 .f32)
    (hx : V c (Pipeline.arrRef spec1 0) = truncf .bf16 x bitsLt_bf16_f32)
    (hw : V c (Pipeline.arrRef spec1 1) = truncf .bf16 w bitsLt_bf16_f32) :
    (dat1 V c).arrAt 2 cfg1.N
      = Host.dotGeneral (F := Ideal) Cert.ReferenceIdeal.dot_S100000x256_S256x64_S100000x64_1_0_0_1_n_n none x w := by
  rw [final V c, hx, hw]
  funext i
  obtain ⟨r, q, rfl⟩ : ∃ (r : Fin 100000) (q : Fin 64), i = ix2 r q := ⟨i 0, i 1, eq_ix2 i⟩
  rw [ref_apply]
  rfl

end Cert.KernelIdeal.RegionValue1

end
-- ==== Proof.Network.lean ====
/-
  The whole network as ONE function of the seven arguments: both programs' results are shown to be this function.
  The two matrix products are the plain [100000, 256] × [256, 128] and [100000, 256] × [256, 64] products.
-/
import proofs.«105978_j29643864277064_1_alg».proof.Proof.Spec
import proofs.«105978_j29643864277064_1_alg».proof.Proof.Gen.ReferenceIdeal

noncomputable section

namespace Cert.Spec

open Cert.KernelIdeal Idealize.ShloMosaic

variable {F : FTy → Type} [FloatOps F]

/-- The first layer's product x · W1. -/
def product1 (x : Ten F S100000x256 .f32) (w1 : Ten F S256x128 .f32) : Ten F S100000x128 .f32 :=
  Host.dotGeneral (F := F) Cert.ReferenceIdeal.dot_S100000x256_S256x128_S100000x128_1_0_0_1_n_n none x w1

/-- The second layer's product h2 · W2. -/
def product2 (h2 : Ten F S100000x256 .f32) (w2 : Ten F S256x64 .f32) : Ten F S100000x64 .f32 :=
  Host.dotGeneral (F := F) Cert.ReferenceIdeal.dot_S100000x256_S256x64_S100000x64_1_0_0_1_n_n none h2 w2

/-- The rectified output of the first layer. -/
def hidden (x : Ten F S100000x256 .f32) (w1 : Ten F S256x128 .f32) (b1 : Ten F S128 .f32) (e : Ten F S2x1600000 .i32) :
    Ten F S100000x128 .f32 :=
  rectify (aggregate128 (sources e) (dests e) (weight (sources e) (dests e) (dinv (dests e))) (product1 x w1) b1)

/-- The network's output. -/
def network (x : Ten F S100000x256 .f32) (w1 : Ten F S256x128 .f32) (b1 : Ten F S128 .f32) (w2 : Ten F S256x64 .f32)
    (b2 : Ten F S64 .f32) (e : Ten F S2x1600000 .i32) (p : Ten F S100000 .i32) : Ten F S100000x64 .f32 :=
  aggregate64 (sources e) (dests e) (weight (sources e) (dests e) (dinv (dests e)))
    (product2 (anchored (hidden x w1 b1 e) p) w2) b2

end Cert.Spec

end
-- ==== Proof.KValue.lean ====
/-
  The kernel program's result as a function of its arguments. The run's last boundary holds, at the result buffer, the
  second layer's aggregation of the second product; the second product is region 1's output array, entered with the
  anchored rectified first-layer output and the second weight matrix (narrowed); the first layer's output is the
  aggregation of the first product, region 0's output array, entered with the features and the first weight matrix
  (narrowed). Every other live value — the edges' endpoints and weights, the biases, the permutation — is made before
  region 0 or is an argument, and no region and no later host operation writes it. Read from the end back to the
  launch memory this is the network's function of the seven arguments.
-/
import proofs.«105978_j29643864277064_1_alg».proof.Proof.KChainA
import proofs.«105978_j29643864277064_1_alg».proof.Proof.KChainB
import proofs.«105978_j29643864277064_1_alg».proof.Proof.RegionValue0
import proofs.«105978_j29643864277064_1_alg».proof.Proof.RegionValue1
import proofs.«105978_j29643864277064_1_alg».proof.Proof.Network

set_option maxRecDepth 16384

noncomputable section

namespace Cert.KernelIdeal.Chain

open Cert.KernelIdeal Cert.KernelIdeal.Gen Cert.KernelIdeal.Facts₀ Cert.KernelIdeal.Facts Cert.Spec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At region 0's exit (`W4`): what was made before the region is as made, and the output array is the first product -/

theorem exit0_src : W4 m ρ c (Proc.devRef .tc main_v3) = sources (m ((c : Thread nD τ).loc main_arg5)) :=
  (W4_of_ne m ρ c main_v3 (by decide)).trans (afterA_src (W0 m ρ c))
theorem exit0_dst : W4 m ρ c (Proc.devRef .tc main_v6) = dests (m ((c : Thread nD τ).loc main_arg5)) :=
  (W4_of_ne m ρ c main_v6 (by decide)).trans (afterA_dst (W0 m ρ c))
theorem exit0_weight : W4 m ρ c (Proc.devRef .tc main_v29)
    = weight (sources (m ((c : Thread nD τ).loc main_arg5))) (dests (m ((c : Thread nD τ).loc main_arg5))) (dinv (dests (m ((c : Thread nD τ).loc main_arg5)))) :=
  (W4_of_ne m ρ c main_v29 (by decide)).trans (afterA_weight (W0 m ρ c))
theorem exit0_bias1 : W4 m ρ c (Proc.devRef .tc main_arg2) = (m ((c : Thread nD τ).loc main_arg2)) :=
  (W4_of_ne m ρ c main_arg2 (by decide)).trans (afterA_keep_bias1 (W0 m ρ c))
theorem exit0_w2 : W4 m ρ c (Proc.devRef .tc main_arg3) = (m ((c : Thread nD τ).loc main_arg3)) :=
  (W4_of_ne m ρ c main_arg3 (by decide)).trans (afterA_keep_w2 (W0 m ρ c))
theorem exit0_bias2 : W4 m ρ c (Proc.devRef .tc main_arg4) = (m ((c : Thread nD τ).loc main_arg4)) :=
  (W4_of_ne m ρ c main_arg4 (by decide)).trans (afterA_keep_bias2 (W0 m ρ c))
theorem exit0_perm : W4 m ρ c (Proc.devRef .tc main_arg6) = (m ((c : Thread nD τ).loc main_arg6)) :=
  (W4_of_ne m ρ c main_arg6 (by decide)).trans (afterA_keep_perm (W0 m ρ c))

/-- Region 0's output array is x · W1. -/
theorem exit0_prod : W4 m ρ c (Proc.devRef .tc main_v32) = product1 (m ((c : Thread nD τ).loc main_arg0)) (m ((c : Thread nD τ).loc main_arg1)) :=
  (W4_arr m ρ c 2).trans (Cert.KernelIdeal.RegionValue0.region0_value (V3 m ρ) c _ _ (afterA_lhs (W0 m ρ c)) (afterA_rhs (W0 m ρ c)))

/-! ## At region 1's entry (`W7`) and exit (`W8`) -/

theorem entry1_lhs : W7 m ρ c (Proc.devRef .tc main_v59)
    = truncf (F := Ideal) .bf16 (anchored (hidden (m ((c : Thread nD τ).loc main_arg0)) (m ((c : Thread nD τ).loc main_arg1)) (m ((c : Thread nD τ).loc main_arg2)) (m ((c : Thread nD τ).loc main_arg5))) (m ((c : Thread nD τ).loc main_arg6))) Facts₀.bitsLt_bf16_f32 := by
  show afterB (W4 m ρ c) (Proc.devRef .tc main_v59) = _
  rw [afterB_lhs, exit0_src, exit0_dst, exit0_weight, exit0_prod, exit0_bias1, exit0_perm]
  rfl
theorem entry1_rhs : W7 m ρ c (Proc.devRef .tc main_v60)
    = truncf (F := Ideal) .bf16 ((m ((c : Thread nD τ).loc main_arg3)) : FVec Ideal S256x64 .f32) Facts₀.bitsLt_bf16_f32 := by
  show afterB (W4 m ρ c) (Proc.devRef .tc main_v60) = _
  rw [afterB_rhs, exit0_w2]

theorem exit1_src : W8 m ρ c (Proc.devRef .tc main_v3) = sources (m ((c : Thread nD τ).loc main_arg5)) :=
  (W8_of_ne m ρ c main_v3 (by decide)).trans ((afterB_keep_src (W4 m ρ c)).trans (exit0_src m ρ c))
theorem exit1_dst : W8 m ρ c (Proc.devRef .tc main_v6) = dests (m ((c : Thread nD τ).loc main_arg5)) :=
  (W8_of_ne m ρ c main_v6 (by decide)).trans ((afterB_keep_dst (W4 m ρ c)).trans (exit0_dst m ρ c))
theorem exit1_weight : W8 m ρ c (Proc.devRef .tc main_v29)
    = weight (sources (m ((c : Thread nD τ).loc main_arg5))) (dests (m ((c : Thread nD τ).loc main_arg5))) (dinv (dests (m ((c : Thread nD τ).loc main_arg5)))) :=
  (W8_of_ne m ρ c main_v29 (by decide)).trans ((afterB_keep_weight (W4 m ρ c)).trans (exit0_weight m ρ c))
theorem exit1_bias2 : W8 m ρ c (Proc.devRef .tc main_arg4) = (m ((c : Thread nD τ).loc main_arg4)) :=
  (W8_of_ne m ρ c main_arg4 (by decide)).trans ((afterB_keep_bias2 (W4 m ρ c)).trans (exit0_bias2 m ρ c))

/-- Region 1's output array is h2 · W2. -/
theorem exit1_prod : W8 m ρ c (Proc.devRef .tc main_v61)
    = product2 (anchored (hidden (m ((c : Thread nD τ).loc main_arg0)) (m ((c : Thread nD τ).loc main_arg1)) (m ((c : Thread nD τ).loc main_arg2)) (m ((c : Thread nD τ).loc main_arg5))) (m ((c : Thread nD τ).loc main_arg6))) (m ((c : Thread nD τ).loc main_arg3)) :=
  (W8_arr m ρ c 2).trans (Cert.KernelIdeal.RegionValue1.region1_value (V7 m ρ) c _ _ (entry1_lhs m ρ c) (entry1_rhs m ρ c))

/-! ## The result -/

/-- The last boundary's contents at the result buffer: the network's output. -/
theorem result_value : W9 m ρ c (Proc.devRef .tc main_v77)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W8 m ρ c) (Proc.devRef .tc main_v77) = _
  rw [afterC_result, exit1_src, exit1_dst, exit1_weight, exit1_prod, exit1_bias2]
  rfl

end Cert.KernelIdeal.Chain

end
-- ==== Proof.RChain.lean ====
/-
  The reference program's host operations read back, stretch by stretch, as the shared functions of the values live
  between the stretches. The reference is a plain host program: the edges' endpoints and the first product; the edge
  weights; the first layer's aggregation, bias and rectifier; the anchoring and the second product; the edge weights
  once more (the same function of the same endpoints); the second layer's aggregation and bias.
-/
import proofs.«105978_j29643864277064_1_alg».proof.Proof.RefRun
import proofs.«105978_j29643864277064_1_alg».proof.Proof.Network
import proofs.«105978_j29643864277064_1_alg».proof.Proof.FoldTactic

set_option maxRecDepth 16384

noncomputable section

namespace Cert.ReferenceIdeal.Chain

open Cert.ReferenceIdeal Cert.ReferenceIdeal.ValueP Cert.ReferenceIdeal.Facts₀ Cert.ReferenceIdeal.Facts Cert.Spec
open Idealize.ShloMosaic Idealize.ShloMosaic.TcCoe Idealize.SL.Sem Idealize.ShloMosaic.StableHlo

variable {F : FTy → Type} [FloatOps F]

section Stretches

variable (V : Valuation τ sig (Elt F))

/-! ## The endpoints and the first product -/

theorem a_src : StableHlo.after ops_a V (Proc.devRef .tc main_v3) = sources (F := F) (V (Proc.devRef .tc main_arg5)) := by
  dsimp only [ops_a]; read_fold; try rfl
theorem a_dst : StableHlo.after ops_a V (Proc.devRef .tc main_v6) = dests (F := F) (V (Proc.devRef .tc main_arg5)) := by
  dsimp only [ops_a]; read_fold; try rfl
theorem a_prod : StableHlo.after ops_a V (Proc.devRef .tc main_v7) = product1 (F := F) (V (Proc.devRef .tc main_arg0)) (V (Proc.devRef .tc main_arg1)) := by
  dsimp only [ops_a]; read_fold; try rfl
theorem a_keep_bias1 : StableHlo.after ops_a V (Proc.devRef .tc main_arg2) = V (Proc.devRef .tc main_arg2) := by
  dsimp only [ops_a]; read_fold
theorem a_keep_w2 : StableHlo.after ops_a V (Proc.devRef .tc main_arg3) = V (Proc.devRef .tc main_arg3) := by
  dsimp only [ops_a]; read_fold
theorem a_keep_bias2 : StableHlo.after ops_a V (Proc.devRef .tc main_arg4) = V (Proc.devRef .tc main_arg4) := by
  dsimp only [ops_a]; read_fold
theorem a_keep_perm : StableHlo.after ops_a V (Proc.devRef .tc main_arg6) = V (Proc.devRef .tc main_arg6) := by
  dsimp only [ops_a]; read_fold

/-! ## The edge weights -/

theorem b_weight : StableHlo.after ops_b V (Proc.devRef .tc main_v30)
    = weight (F := F) (V (Proc.devRef .tc main_v3)) (V (Proc.devRef .tc main_v6)) (dinv (V (Proc.devRef .tc main_v6))) := by
  dsimp only [ops_b]; read_fold; try rfl
theorem b_keep_src : StableHlo.after ops_b V (Proc.devRef .tc main_v3) = V (Proc.devRef .tc main_v3) := by
  dsimp only [ops_b]; read_fold
theorem b_keep_dst : StableHlo.after ops_b V (Proc.devRef .tc main_v6) = V (Proc.devRef .tc main_v6) := by
  dsimp only [ops_b]; read_fold
theorem b_keep_prod : StableHlo.after ops_b V (Proc.devRef .tc main_v7) = V (Proc.devRef .tc main_v7) := by
  dsimp only [ops_b]; read_fold
theorem b_keep_bias1 : StableHlo.after ops_b V (Proc.devRef .tc main_arg2) = V (Proc.devRef .tc main_arg2) := by
  dsimp only [ops_b]; read_fold
theorem b_keep_w2 : StableHlo.after ops_b V (Proc.devRef .tc main_arg3) = V (Proc.devRef .tc main_arg3) := by
  dsimp only [ops_b]; read_fold
theorem b_keep_bias2 : StableHlo.after ops_b V (Proc.devRef .tc main_arg4) = V (Proc.devRef .tc main_arg4) := by
  dsimp only [ops_b]; read_fold
theorem b_keep_perm : StableHlo.after ops_b V (Proc.devRef .tc main_arg6) = V (Proc.devRef .tc main_arg6) := by
  dsimp only [ops_b]; read_fold

/-! ## The first layer -/

theorem c_hidden : StableHlo.after ops_c V (Proc.devRef .tc main_v47)
    = rectify (F := F) (aggregate128 (V (Proc.devRef .tc main_v3)) (V (Proc.devRef .tc main_v6)) (V (Proc.devRef .tc main_v30)) (V (Proc.devRef .tc main_v7)) (V (Proc.devRef .tc main_arg2))) := by
  dsimp only [ops_c]; read_fold; try rfl
theorem c_keep_src : StableHlo.after ops_c V (Proc.devRef .tc main_v3) = V (Proc.devRef .tc main_v3) := by
  dsimp only [ops_c]; read_fold
theorem c_keep_dst : StableHlo.after ops_c V (Proc.devRef .tc main_v6) = V (Proc.devRef .tc main_v6) := by
  dsimp only [ops_c]; read_fold
theorem c_keep_w2 : StableHlo.after ops_c V (Proc.devRef .tc main_arg3) = V (Proc.devRef .tc main_arg3) := by
  dsimp only [ops_c]; read_fold
theorem c_keep_bias2 : StableHlo.after ops_c V (Proc.devRef .tc main_arg4) = V (Proc.devRef .tc main_arg4) := by
  dsimp only [ops_c]; read_fold
theorem c_keep_perm : StableHlo.after ops_c V (Proc.devRef .tc main_arg6) = V (Proc.devRef .tc main_arg6) := by
  dsimp only [ops_c]; read_fold

/-! ## The anchoring and the second product -/

theorem d_prod : StableHlo.after ops_d V (Proc.devRef .tc main_v57)
    = product2 (F := F) (anchored (V (Proc.devRef .tc main_v47)) (V (Proc.devRef .tc main_arg6))) (V (Proc.devRef .tc main_arg3)) := by
  dsimp only [ops_d]; read_fold; try rfl
theorem d_keep_src : StableHlo.after ops_d V (Proc.devRef .tc main_v3) = V (Proc.devRef .tc main_v3) := by
  dsimp only [ops_d]; read_fold
theorem d_keep_dst : StableHlo.after ops_d V (Proc.devRef .tc main_v6) = V (Proc.devRef .tc main_v6) := by
  dsimp only [ops_d]; read_fold
theorem d_keep_bias2 : StableHlo.after ops_d V (Proc.devRef .tc main_arg4) = V (Proc.devRef .tc main_arg4) := by
  dsimp only [ops_d]; read_fold

/-! ## The edge weights again -/

theorem e_weight : StableHlo.after ops_e V (Proc.devRef .tc main_v80)
    = weight (F := F) (V (Proc.devRef .tc main_v3)) (V (Proc.devRef .tc main_v6)) (dinv (V (Proc.devRef .tc main_v6))) := by
  dsimp only [ops_e]; read_fold; try rfl
theorem e_keep_src : StableHlo.after ops_e V (Proc.devRef .tc main_v3) = V (Proc.devRef .tc main_v3) := by
  dsimp only [ops_e]; read_fold
theorem e_keep_dst : StableHlo.after ops_e V (Proc.devRef .tc main_v6) = V (Proc.devRef .tc main_v6) := by
  dsimp only [ops_e]; read_fold
theorem e_keep_prod : StableHlo.after ops_e V (Proc.devRef .tc main_v57) = V (Proc.devRef .tc main_v57) := by
  dsimp only [ops_e]; read_fold
theorem e_keep_bias2 : StableHlo.after ops_e V (Proc.devRef .tc main_arg4) = V (Proc.devRef .tc main_arg4) := by
  dsimp only [ops_e]; read_fold

/-! ## The second layer -/

theorem f_result : StableHlo.after ops_f V (Proc.devRef .tc main_v96)
    = aggregate64 (F := F) (V (Proc.devRef .tc main_v3)) (V (Proc.devRef .tc main_v6)) (V (Proc.devRef .tc main_v80)) (V (Proc.devRef .tc main_v57)) (V (Proc.devRef .tc main_arg4)) := by
  dsimp only [ops_f]; read_fold; try rfl

/-! ## The whole program -/

set_option maxRecDepth 65536 in
/-- The reference's result buffer after all its operations: the network's output. The six stretches are read from the
    last back to the first; each value a stretch does not make is what the stretch before left. -/
theorem result_value : StableHlo.after ops V (Proc.devRef .tc main_v96)
    = network (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_cut]
  simp only [StableHlo.after_append]
  rw [f_result]
  rw [e_weight, e_keep_src, e_keep_dst, e_keep_prod, e_keep_bias2]
  rw [d_prod, d_keep_src, d_keep_dst, d_keep_bias2]
  rw [c_hidden, c_keep_src, c_keep_dst, c_keep_w2, c_keep_bias2, c_keep_perm]
  rw [b_weight, b_keep_src, b_keep_dst, b_keep_prod, b_keep_bias1, b_keep_w2, b_keep_bias2, b_keep_perm]
  rw [a_src, a_dst, a_prod, a_keep_bias1, a_keep_w2, a_keep_bias2, a_keep_perm]
  rfl

end Stretches

/-- The reference's run with its result named: every weakly fair execution terminates, nothing faulting, with the
    result buffer at the network's output of the launch arguments and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
        = network (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_value (launchContents m c)), (h c).2⟩) (ValueP.run m ρ)

end Cert.ReferenceIdeal.Chain

end
-- ==== Proof.lean ====
/-
  The certificate of a two-layer graph convolution (100000 nodes, 1600000 edges plus self loops) whose two dense
  products x · W1 ([100000, 256] × [256, 128]) and h2 · W2 ([100000, 256] × [256, 64]) run as row-tiled matrix-product
  kernels on narrowed operands, against a reference that computes the same network with plain whole-array products.

  Over the extended reals narrowing a float's format is the identity, and a product into a zero accumulator and a
  whole-array product are the same finite sum over the contracted index; a kernel's ten row blocks tile its output
  array. So each kernel region leaves exactly the reference's product (Proof/RegionValue0, Proof/RegionValue1). Every
  other operation — the edges' endpoints, the degree normalisation dinv[src] · dinv[dst], the gathers and scatter-adds
  of the aggregation, biases, rectifier, the anchoring by the permutation — is the same host operation in both
  programs, kept folded as the functions of Proof/Spec; the reference computes the edge weights twice, the kernel
  program once, the same function of the same endpoints. Both programs' results are therefore one function, `network`
  (Proof/Network), of the seven arguments: for the kernel program by reading its run's segment boundaries from the
  end back through both regions (Proof/KValue over Proof/KChainA, Proof/KChainB), for the reference by reading its
  operations stretch by stretch (Proof/RChain). No law here needs the inputs finite: only commutative sums are
  re-indexed, so the precondition is never opened.

  The three frames: the two kernel programs' are the generated frame certificates; the reference's is its run with
  the result dropped. The idealization rewrote no operation, so `preserves` is trivial.
-/
import proofs.«105978_j29643864277064_1_alg».proof.Defs
import proofs.«105978_j29643864277064_1_alg».proof.Proof.Gen.Kernel
import proofs.«105978_j29643864277064_1_alg».proof.Proof.Gen.Kernel.Frame
import proofs.«105978_j29643864277064_1_alg».proof.Proof.Gen.KernelIdeal
import proofs.«105978_j29643864277064_1_alg».proof.Proof.Gen.KernelIdeal.Frame
import proofs.«105978_j29643864277064_1_alg».proof.Proof.Gen.ReferenceIdeal
import proofs.«105978_j29643864277064_1_alg».proof.Proof.Gen.Pre_finite_inputs
import proofs.«105978_j29643864277064_1_alg».proof.Proof.KernelRun
import proofs.«105978_j29643864277064_1_alg».proof.Proof.KValue
import proofs.«105978_j29643864277064_1_alg».proof.Proof.RChain
import Idealize.ShloMosaic.Adequacy
import Idealize.ShloMosaic.Init

noncomputable section

namespace Cert.Proof

open Idealize.ShloMosaic Idealize.SL.Sem Cert.Spec

theorem frame_kernel : Cert.frame_Kernel := fun m ρ _ => Cert.Kernel.Gen.frame m ρ
theorem frame_kernelIdeal : Cert.frame_KernelIdeal := fun m ρ _ => Cert.KernelIdeal.Gen.frame m ρ
/-- The reference's frame: its run, the result dropped. -/
theorem frame_referenceIdeal : Cert.frame_ReferenceIdeal := fun m ρ _ =>
  (θ_run Cert.ReferenceIdeal.defs _ _).mono (fun _ h c => (h c).2) (Cert.ReferenceIdeal.Chain.run_value (F := Ideal) m ρ)

/-- Both idealized programs, from memories that agree on the arguments, end with the result buffer at the network's
    output of those arguments. -/
theorem algebraic : Cert.algebraic_KernelIdeal_ReferenceIdeal := by
  intro m ρ m' ρ' _ hagree
  refine ⟨fun c => network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result_value m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Chain.run_value (F := Ideal) m' ρ')
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
